-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel

variable [Facts]

def fn {F : FTy → Type} [FloatOps F] (main_arg0 : FVec F S16x64x256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  main_v3
-- ==== Kernel.lean ====
abbrev S16x64x256x256 : Shape := ⟨4, ![16, 64, 256, 256]⟩
abbrev S1024x256x256 : Shape := ⟨3, ![1024, 256, 256]⟩
abbrev S8x256x256 : Shape := ⟨3, ![8, 256, 256]⟩
abbrev S8x1x256 : Shape := ⟨3, ![8, 1, 256]⟩
abbrev S8x257x256 : Shape := ⟨3, ![8, 257, 256]⟩
abbrev S8x258x256 : Shape := ⟨3, ![8, 258, 256]⟩
abbrev S8x258x1 : Shape := ⟨3, ![8, 258, 1]⟩
abbrev S8x258x257 : Shape := ⟨3, ![8, 258, 257]⟩
abbrev S8x258x258 : Shape := ⟨3, ![8, 258, 258]⟩

abbrev nBuf : Space → Nat
  | .hbm => 4
  | .vmem => 4
  | .smem => 0
  | _ => 0

abbrev bufTy : (tb : Table) → Fin (tcTables nBuf tb) → BufTy
  | .hbm, ⟨0, _⟩ => ⟨S16x64x256x256, .f32⟩
  | .hbm, ⟨1, _⟩ => ⟨S1024x256x256, .f32⟩
  | .hbm, ⟨2, _⟩ => ⟨S1024x256x256, .f32⟩
  | .hbm, ⟨3, _⟩ => ⟨S16x64x256x256, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x64x256x256_S1024x256x256 : S16x64x256x256.ShapeCasts S1024x256x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  concatenates_S8x1x256_S8x256x256_S8x257x256_d1 : Shape.Concatenates [S8x1x256, S8x256x256] S8x257x256 1
  concatenates_S8x257x256_S8x1x256_S8x258x256_d1 : Shape.Concatenates [S8x257x256, S8x1x256] S8x258x256 1
  concatenates_S8x258x1_S8x258x256_S8x258x257_d2 : Shape.Concatenates [S8x258x1, S8x258x256] S8x258x257 2
  concatenates_S8x258x257_S8x258x1_S8x258x258_d2 : Shape.Concatenates [S8x258x257, S8x258x1] S8x258x258 2
  slices_S8x258x258_o0_0_0_S8x256x256 : S8x258x258.Slices ![0, 0, 0] S8x256x256
  slices_S8x258x258_o0_0_1_S8x256x256 : S8x258x258.Slices ![0, 0, 1] S8x256x256
  slices_S8x258x258_o0_0_2_S8x256x256 : S8x258x258.Slices ![0, 0, 2] S8x256x256
  slices_S8x258x258_o0_1_0_S8x256x256 : S8x258x258.Slices ![0, 1, 0] S8x256x256
  slices_S8x258x258_o0_1_1_S8x256x256 : S8x258x258.Slices ![0, 1, 1] S8x256x256
  slices_S8x258x258_o0_1_2_S8x256x256 : S8x258x258.Slices ![0, 1, 2] S8x256x256
  slices_S8x258x258_o0_2_0_S8x256x256 : S8x258x258.Slices ![0, 2, 0] S8x256x256
  slices_S8x258x258_o0_2_1_S8x256x256 : S8x258x258.Slices ![0, 2, 1] S8x256x256
  slices_S8x258x258_o0_2_2_S8x256x256 : S8x258x258.Slices ![0, 2, 2] S8x256x256
  shapeCasts_S1024x256x256_S16x64x256x256 : S1024x256x256.ShapeCasts S16x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S1024x256x256.size a
  hwx0_0 : ∀ i : grid0.Coords, EltTy.bits .f32 = 32 ∨ (Rect.block (s := S1024x256x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S1024x256x256.size a
  hwx0_1 : ∀ i : grid0.Coords, EltTy.bits .f32 = 32 ∨ (Rect.block (s := S1024x256x256) S8x256x256.size (cc0_transform_1 i) (hinb0_1 i)).WholeWords (EltTy.packing .f32)

variable [Facts₀]

abbrev win0_0 : Pipeline.Window sig grid0 :=
  Pipeline.Window.ofSpec (Memref.whole main_v0) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S_ : Shape := ⟨0, ![]⟩
abbrev S16x64x258x258 : Shape := ⟨4, ![16, 64, 258, 258]⟩

abbrev nBuf : Space → Nat
  | .hbm => 7
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S_, .f32⟩
  | .hbm, ⟨2, _⟩ => ⟨S_, .f32⟩
  | .hbm, ⟨3, _⟩ => ⟨S16x64x258x258, .f32⟩
  | .hbm, ⟨4, _⟩ => ⟨S_, .f32⟩
  | .hbm, ⟨5, _⟩ => ⟨S_, .f32⟩
  | .hbm, ⟨6, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  pads_S16x64x256x256_S16x64x258x258_000_000_110_110 : S16x64x256x256.Pads (![0, 0, 1, 1] : Fin 4 → Nat) ![0, 0, 1, 1] ![0, 0, 0, 0] S16x64x258x258
  h_S_ : 0 < S_.numel
  bcast_S_S_ : S_.BroadcastsInDim S_ (![] : Fin 0 → Fin S_.rank)
  reduceWindows_S16x64x258x258_S16x64x256x256_w1s1p0_0_w1s1p0_0_w3s1p0_0_w3s1p0_0 : S16x64x258x258.ReduceWindows (![1, 1, 3, 3] : Fin 4 → Nat) ![1, 1, 1, 1] ![0, 0, 0, 0] ![0, 0, 0, 0] S16x64x256x256

variable [Facts₀]

class Facts : Prop extends Facts₀ where

variable [Facts]
-- ==== Proof.Erosion.lean ====
/-
  Grey-scale erosion by a 3×3 window, as one function of the image.

  An image is a function of a row and a column, both counted from 0.  Seen through a border one pixel wide,
  position (r, q) of the bordered image is pixel (r - 1, q - 1) of the image when both r and q lie in 1 … 256, and the
  border value otherwise.  The eroded image at (r, q) is the minimum of the nine bordered positions (r + dh, q + dw),
  dh, dw ∈ {0, 1, 2}; the nine are taken row by row, left to right, which is both the order in which the kernel chains
  its minima and the row-major order in which a windowed reduction walks its window.  The minimum of extended reals is
  associative and commutative with ⊤ as its unit, so a fold that starts from ⊤ is the same chain.
-/
import Idealize.ShloMosaic.PureOps.Ideal
import Idealize.ShloMosaic.Lib.ValueIdx

noncomputable section

namespace Cert.Erosion

open Idealize.ShloMosaic Idealize.ShloMosaic.ValueIdx

/-- The image `f` seen through a one-pixel border of value `c`: a 258 × 258 picture whose inner 256 × 256 positions
    are `f`'s pixels, shifted by one. -/
def bordered {α : Type} (c : α) (f : ℕ → ℕ → α) (r q : ℕ) : α :=
  if (1 ≤ r ∧ r ≤ 256) ∧ (1 ≤ q ∧ q ≤ 256) then f (r - 1) (q - 1) else c

theorem bordered_inner {α : Type} (c : α) (f : ℕ → ℕ → α) (r q : ℕ) (h : (1 ≤ r ∧ r ≤ 256) ∧ (1 ≤ q ∧ q ≤ 256)) :
    bordered c f r q = f (r - 1) (q - 1) := if_pos h

theorem bordered_border {α : Type} (c : α) (f : ℕ → ℕ → α) (r q : ℕ) (h : ¬((1 ≤ r ∧ r ≤ 256) ∧ (1 ≤ q ∧ q ≤ 256))) :
    bordered c f r q = c := if_neg h

/-- The minimum of the nine positions of the bordered image under the 3 × 3 window whose top-left corner is (r, q),
    taken row by row. -/
def erode (c : EReal) (f : ℕ → ℕ → EReal) (r q : ℕ) : EReal :=
  min (min (min (min (min (min (min (min (bordered c f r q) (bordered c f r (q + 1))) (bordered c f r (q + 2)))
    (bordered c f (r + 1) q)) (bordered c f (r + 1) (q + 1))) (bordered c f (r + 1) (q + 2)))
    (bordered c f (r + 2) q)) (bordered c f (r + 2) (q + 1))) (bordered c f (r + 2) (q + 2))

/-- Image (a, b) of a batch of 16 × 64 images of 256 × 256 pixels, as a function of row and column (anything
    outside the picture: the border never looks there). -/
def img (x : FVec Ideal ⟨4, ![16, 64, 256, 256]⟩ .f32) (a : Fin 16) (b : Fin 64) (r q : ℕ) : EReal :=
  if h : r < 256 ∧ q < 256 then x (ix4 a b ⟨r, h.1⟩ ⟨q, h.2⟩) else 0

theorem img_apply (x : FVec Ideal ⟨4, ![16, 64, 256, 256]⟩ .f32) (a : Fin 16) (b : Fin 64) (r q : ℕ)
    (hr : r < 256) (hq : q < 256) : img x a b r q = x (ix4 a b ⟨r, hr⟩ ⟨q, hq⟩) := dif_pos ⟨hr, hq⟩

/-- Every image of the batch eroded, with border value `c`. -/
def eroded (c : EReal) (x : FVec Ideal ⟨4, ![16, 64, 256, 256]⟩ .f32) : FVec Ideal ⟨4, ![16, 64, 256, 256]⟩ .f32 :=
  fun i => erode c (img x (i 0) (i 1)) (i 2).val (i 3).val

/-- The border value both programs use: the float 1e9. -/
abbrev big : EReal := Ideal.ofBits .f32 0x4E6E6B28#32

/-- The float +∞ is the top extended real. -/
theorem ofBits_inf : Ideal.ofBits .f32 0x7F800000#32 = ⊤ := by simp [Ideal.ofBits, Ideal.ieee]

end Cert.Erosion

end
-- ==== Proof.Payload.lean ====
/-
  What the kernel body computes from one loaded block, entry by entry.

  The body pads its 8 × 256 × 256 block to 8 × 258 × 258 by four concatenations — a border row above, one below, a
  border column on the left, one on the right, all of the same value — and takes the minimum of the nine 8 × 256 × 256
  slices at offsets (dh, dw) ∈ {0, 1, 2}², chained row by row.  So entry (p, r, q) of what it stores is the 3 × 3 erosion
  at (r, q) of image p of the block seen through a one-pixel border.
-/
import proofs.«109945_j86517821212128_1_alg».proof.Proof.Gen.KernelIdeal.Skeleton
import proofs.«109945_j86517821212128_1_alg».proof.Proof.Erosion
import Idealize.ShloMosaic.Lib.Pipeline.Value

noncomputable section

namespace Cert.KernelIdeal.Body

open Cert.KernelIdeal Cert.KernelIdeal.Gen Idealize.ShloMosaic Idealize.ShloMosaic.ValueIdx Cert.Erosion

variable {α : Type}

/-- A border row above and a border row below: row `r` of the 258 rows is the block's row `r - 1` for
    `1 ≤ r ≤ 256` and the border value on rows 0 and 257. -/
theorem rows_apply (c : α) (v : S8x256x256.Idx → α)
    (h1 : Shape.Concatenates [S8x1x256, S8x256x256] S8x257x256 1)
    (h2 : Shape.Concatenates [S8x257x256, S8x1x256] S8x258x256 1)
    (p : Fin 8) (r : Fin 258) (q : Fin 256) :
    concatenate S8x258x256 1 [⟨S8x257x256, concatenate S8x257x256 1 [⟨S8x1x256, broadcast S8x1x256 c⟩, ⟨S8x256x256, v⟩] h1⟩,
        ⟨S8x1x256, broadcast S8x1x256 c⟩] h2 (ix3 p r q)
      = if h : 1 ≤ r.val ∧ r.val ≤ 256 then v (ix3 p ⟨r.val - 1, by omega⟩ q) else c := by
  by_cases hr : r.val ≤ 256
  · rw [concatenate_pair_apply_left (t := S8x258x256) (s₁ := S8x257x256) (s₂ := S8x1x256) (1 : Fin 3) _ _ h2 (ix3 p r q) rfl
      (ix3 p ⟨r.val, by omega⟩ q) (by intro b; match b with | ⟨0, _⟩ => rfl | ⟨1, _⟩ => rfl | ⟨2, _⟩ => rfl)]
    by_cases h0 : 1 ≤ r.val
    · rw [dif_pos ⟨h0, hr⟩]
      exact concatenate_pair_apply_right (t := S8x257x256) (s₁ := S8x1x256) (s₂ := S8x256x256) (1 : Fin 3) _ _ h1
        (ix3 p ⟨r.val, by omega⟩ q) rfl rfl (ix3 p ⟨r.val - 1, by omega⟩ q)
        (by intro b hb; match b, hb with | ⟨0, _⟩, _ => rfl | ⟨1, _⟩, hb => exact absurd rfl hb | ⟨2, _⟩, _ => rfl)
        (by show r.val - 1 + 1 = r.val; omega)
    · rw [dif_neg (fun h => h0 h.1)]
      exact concatenate_pair_apply_left (t := S8x257x256) (s₁ := S8x1x256) (s₂ := S8x256x256) (1 : Fin 3) _ _ h1
        (ix3 p ⟨r.val, by omega⟩ q) rfl (ix3 p ⟨0, by omega⟩ q)
        (by intro b; match b with | ⟨0, _⟩ => rfl | ⟨1, _⟩ => exact (show (0 : ℕ) = r.val by omega) | ⟨2, _⟩ => rfl)
  · rw [dif_neg (fun h => hr h.2)]
    exact concatenate_pair_apply_right (t := S8x258x256) (s₁ := S8x257x256) (s₂ := S8x1x256) (1 : Fin 3) _ _ h2
      (ix3 p r q) rfl rfl (ix3 p ⟨0, by omega⟩ q)
      (by intro b hb; match b, hb with | ⟨0, _⟩, _ => rfl | ⟨1, _⟩, hb => exact absurd rfl hb | ⟨2, _⟩, _ => rfl)
      (by show 0 + 257 = r.val; have := r.isLt; omega)

/-- A border column on the left and one on the right: column `q` of the 258 columns is the operand's column
    `q - 1` for `1 ≤ q ≤ 256` and the border value on columns 0 and 257. -/
theorem cols_apply (c : α) (u : S8x258x256.Idx → α)
    (h3 : Shape.Concatenates [S8x258x1, S8x258x256] S8x258x257 2)
    (h4 : Shape.Concatenates [S8x258x257, S8x258x1] S8x258x258 2)
    (p : Fin 8) (r : Fin 258) (q : Fin 258) :
    concatenate S8x258x258 2 [⟨S8x258x257, concatenate S8x258x257 2 [⟨S8x258x1, broadcast S8x258x1 c⟩, ⟨S8x258x256, u⟩] h3⟩,
        ⟨S8x258x1, broadcast S8x258x1 c⟩] h4 (ix3 p r q)
      = if h : 1 ≤ q.val ∧ q.val ≤ 256 then u (ix3 p r ⟨q.val - 1, by omega⟩) else c := by
  by_cases hq : q.val ≤ 256
  · rw [concatenate_pair_apply_left (t := S8x258x258) (s₁ := S8x258x257) (s₂ := S8x258x1) (2 : Fin 3) _ _ h4 (ix3 p r q) rfl
      (ix3 p r ⟨q.val, by omega⟩) (by intro b; match b with | ⟨0, _⟩ => rfl | ⟨1, _⟩ => rfl | ⟨2, _⟩ => rfl)]
    by_cases h0 : 1 ≤ q.val
    · rw [dif_pos ⟨h0, hq⟩]
      exact concatenate_pair_apply_right (t := S8x258x257) (s₁ := S8x258x1) (s₂ := S8x258x256) (2 : Fin 3) _ _ h3
        (ix3 p r ⟨q.val, by omega⟩) rfl rfl (ix3 p r ⟨q.val - 1, by omega⟩)
        (by intro b hb; match b, hb with | ⟨0, _⟩, _ => rfl | ⟨1, _⟩, _ => rfl | ⟨2, _⟩, hb => exact absurd rfl hb)
        (by show q.val - 1 + 1 = q.val; omega)
    · rw [dif_neg (fun h => h0 h.1)]
      exact concatenate_pair_apply_left (t := S8x258x257) (s₁ := S8x258x1) (s₂ := S8x258x256) (2 : Fin 3) _ _ h3
        (ix3 p r ⟨q.val, by omega⟩) rfl (ix3 p r ⟨0, by omega⟩)
        (by intro b; match b with | ⟨0, _⟩ => rfl | ⟨1, _⟩ => rfl | ⟨2, _⟩ => exact (show (0 : ℕ) = q.val by omega))
  · rw [dif_neg (fun h => hq h.2)]
    exact concatenate_pair_apply_right (t := S8x258x258) (s₁ := S8x258x257) (s₂ := S8x258x1) (2 : Fin 3) _ _ h4
      (ix3 p r q) rfl rfl (ix3 p r ⟨0, by omega⟩)
      (by intro b hb; match b, hb with | ⟨0, _⟩, _ => rfl | ⟨1, _⟩, _ => rfl | ⟨2, _⟩, hb => exact absurd rfl hb)
      (by show 0 + 257 = q.val; have := q.isLt; omega)

/-- The block padded on all four sides, as the body builds it. -/
abbrev padded (c : α) (v : S8x256x256.Idx → α)
    (h1 : Shape.Concatenates [S8x1x256, S8x256x256] S8x257x256 1)
    (h2 : Shape.Concatenates [S8x257x256, S8x1x256] S8x258x256 1)
    (h3 : Shape.Concatenates [S8x258x1, S8x258x256] S8x258x257 2)
    (h4 : Shape.Concatenates [S8x258x257, S8x258x1] S8x258x258 2) : S8x258x258.Idx → α :=
  concatenate S8x258x258 2 [⟨S8x258x257, concatenate S8x258x257 2 [⟨S8x258x1, broadcast S8x258x1 c⟩,
      ⟨S8x258x256, concatenate S8x258x256 1 [⟨S8x257x256, concatenate S8x257x256 1 [⟨S8x1x256, broadcast S8x1x256 c⟩, ⟨S8x256x256, v⟩] h1⟩,
        ⟨S8x1x256, broadcast S8x1x256 c⟩] h2⟩] h3⟩,
    ⟨S8x258x1, broadcast S8x258x1 c⟩] h4

/-- The padded block is image `p` of the block seen through the border. -/
theorem padded_apply (c : α) (v : S8x256x256.Idx → α) (h1 h2 h3 h4) (p : Fin 8) (f : ℕ → ℕ → α)
    (hf : ∀ (r q : ℕ) (hr : r < 256) (hq : q < 256), v (ix3 p ⟨r, hr⟩ ⟨q, hq⟩) = f r q) (r q : Fin 258) :
    padded c v h1 h2 h3 h4 (ix3 p r q) = bordered c f r.val q.val := by
  unfold padded
  rw [cols_apply]
  by_cases hq : 1 ≤ q.val ∧ q.val ≤ 256
  · rw [dif_pos hq, rows_apply]
    by_cases hr : 1 ≤ r.val ∧ r.val ≤ 256
    · rw [dif_pos hr, bordered_inner c f _ _ ⟨hr, hq⟩]; exact hf _ _ _ _
    · rw [dif_neg hr, bordered_border c f _ _ (fun h => hr h.1)]
  · rw [dif_neg hq, bordered_border c f _ _ (fun h => hq h.2)]

/-- One of the nine slices of the padded block, at an entry: the bordered image one window step along. -/
theorem tap_apply (c : α) (v : S8x256x256.Idx → α) (h1 h2 h3 h4) (dh dw : ℕ) (hdh : dh ≤ 2) (hdw : dw ≤ 2)
    (hs : S8x258x258.Slices ![0, dh, dw] S8x256x256) (p : Fin 8) (f : ℕ → ℕ → α)
    (hf : ∀ (r q : ℕ) (hr : r < 256) (hq : q < 256), v (ix3 p ⟨r, hr⟩ ⟨q, hq⟩) = f r q) (r q : Fin 256) :
    extractStridedSlice S8x256x256 ![0, dh, dw] (padded c v h1 h2 h3 h4) hs (ix3 p r q)
      = bordered c f (r.val + dh) (q.val + dw) := by
  rw [extractStridedSlice_apply _ _ hs (ix3 p r q) (ix3 p ⟨r.val + dh, by omega⟩ ⟨q.val + dw, by omega⟩)
    (by intro a; match a with
      | ⟨0, _⟩ => exact (show p.val = 0 + p.val by omega)
      | ⟨1, _⟩ => exact (show r.val + dh = dh + r.val by omega)
      | ⟨2, _⟩ => exact (show q.val + dw = dw + q.val by omega))]
  exact padded_apply c v h1 h2 h3 h4 p f hf _ _

/-- Entry (p, r, q) of what the body stores: the erosion at (r, q) of image `p` of the loaded block, the border at
    the float 1e9. -/
theorem pay_apply (v0 : Vec Ideal S8x256x256 .f32) (p : Fin 8) (f : ℕ → ℕ → EReal)
    (hf : ∀ (r q : ℕ) (hr : r < 256) (hq : q < 256), v0 (ix3 p ⟨r, hr⟩ ⟨q, hq⟩) = f r q) (r q : Fin 256) :
    k0_pay1 (F := Ideal) v0 (ix3 p r q) = erode big f r.val q.val := by
  unfold k0_pay1
  rw [shapeCast_self]
  simp only [minimumf_apply]
  rw [tap_apply _ v0 _ _ _ _ 0 0 (by omega) (by omega) _ p f hf r q,
    tap_apply _ v0 _ _ _ _ 0 1 (by omega) (by omega) _ p f hf r q,
    tap_apply _ v0 _ _ _ _ 0 2 (by omega) (by omega) _ p f hf r q,
    tap_apply _ v0 _ _ _ _ 1 0 (by omega) (by omega) _ p f hf r q,
    tap_apply _ v0 _ _ _ _ 1 1 (by omega) (by omega) _ p f hf r q,
    tap_apply _ v0 _ _ _ _ 1 2 (by omega) (by omega) _ p f hf r q,
    tap_apply _ v0 _ _ _ _ 2 0 (by omega) (by omega) _ p f hf r q,
    tap_apply _ v0 _ _ _ _ 2 1 (by omega) (by omega) _ p f hf r q,
    tap_apply _ v0 _ _ _ _ 2 2 (by omega) (by omega) _ p f hf r q]
  rfl

end Cert.KernelIdeal.Body

end
-- ==== Proof.KernelValue.lean ====
/-
  What the kernel program leaves in its result, as one function of its argument.

  The program merges the batch's two leading axes (16 × 64 images become 1024), runs the kernel over 128 grid points,
  point t taking images 8t … 8t + 7, and splits the leading axis again.  Point t writes back the erosion of its eight
  images, which is block t of the eroded batch with its leading axes merged; the 128 blocks tile the array; so the
  kernel's output array is the eroded batch merged, and splitting the axis again gives the eroded batch.
-/
import proofs.«109945_j86517821212128_1_alg».proof.Proof.Gen.KernelIdeal.Frame
import proofs.«109945_j86517821212128_1_alg».proof.Proof.Payload
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.Erosion
open Idealize.ShloMosaic.Pipeline (Dat)

variable (m : (ℓ : Loc nD τ sig) → Buf (Elt Ideal) ℓ) (ρ : Dev nD → PrngReg)

/-- The batch the program is given. -/
abbrev xin (c : Dev nD) : FVec Ideal S16x64x256x256 .f32 := m ((c : Thread nD τ).loc main_arg0)

/-- The eroded batch with its two leading axes merged: what the kernel's output array ends holding. -/
abbrev merged (c : Dev nD) : FVec Ideal S1024x256x256 .f32 :=
  shapeCast S1024x256x256 (eroded big (xin m c)) shapeCasts_S16x64x256x256_S1024x256x256

theorem hz : (![0, 0, 0] : Fin 3 → Nat) = fun _ => 0 := funext fun a => by fin_cases a <;> rfl

/-- Merging the two leading axes: image `n` of the 1024 is image (n / 64, n % 64) of the 16 × 64. -/
theorem merged_apply {α : Type} (x : S16x64x256x256.Idx → α) (h : S16x64x256x256.ShapeCasts S1024x256x256)
    (n : Fin 1024) (r q : Fin 256) :
    shapeCast S1024x256x256 x h (ix3 n r q) = x (ix4 ⟨n.val / 64, by omega⟩ ⟨n.val % 64, by omega⟩ r q) := by
  refine shapeCast_apply x h _ _ ?_
  rw [Shape.rowMajor_val_four, Shape.rowMajor_val_three]
  show ((n.val / 64 * 64 + n.val % 64) * 256 + r.val) * 256 + q.val = (n.val * 256 + r.val) * 256 + q.val
  omega

/-- The array the kernel reads is the batch with its leading axes merged. -/
theorem V_main_v0 (c : Dev nD) :
    (V m c main_v0 : S1024x256x256.Idx → EReal) = shapeCast S1024x256x256 (xin m c) shapeCasts_S16x64x256x256_S1024x256x256 := by
  show StableHlo.after hostOps0 (fun b => m (c, b)) (Proc.devRef .tc main_v0) = _
  after_results
  rfl

/-- The printed index maps, decided over the grid: point `t` takes block `t` along the image axis, whole images. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The block the kernel loads at point `t`. -/
abbrev xblk (c : Dev nD) (t : Fin cfg0.N) : Vec Ideal S8x256x256 .f32 := iblk m c 0 t

/-- Image `p` of the block loaded at point `t` is image `8t + p` of the merged batch. -/
theorem xblk_apply (c : Dev nD) (t : Fin cfg0.N) (p : Fin 8) (r q : ℕ) (hr : r < 256) (hq : q < 256) :
    xblk m c t (ix3 p ⟨r, hr⟩ ⟨q, hq⟩)
      = img (xin m c) ⟨(8 * t.val + p.val) / 64, by have : t.val < grid0.N := t.isLt; rw [N_0] at this; omega⟩
          ⟨(8 * t.val + p.val) % 64, by omega⟩ r q := by
  obtain ⟨e0, e1, e2, e3, e4, e5⟩ := idx_facts t
  have ht : t.val < 128 := by have : t.val < grid0.N := t.isLt; rw [N_0] at this; exact this
  rw [img_apply _ _ _ _ _ hr hq]
  show V m c main_v0 (((cfg0.win 0).blk t).view.emb (ix3 p ⟨r, hr⟩ ⟨q, hq⟩)) = _
  have hemb : ((cfg0.win 0).blk t).view.emb (ix3 p ⟨r, hr⟩ ⟨q, hq⟩)
      = (ix3 ⟨8 * t.val + p.val, by omega⟩ ⟨r, hr⟩ ⟨q, hq⟩ : S1024x256x256.Idx) := by
    funext a; apply Fin.ext
    match a with
    | ⟨0, _⟩ => show win0_0.index t (0 : Fin 3) * 8 + 1 * p.val = 8 * t.val + p.val; omega
    | ⟨1, _⟩ => show win0_0.index t (1 : Fin 3) * 256 + 1 * r = r; omega
    | ⟨2, _⟩ => show win0_0.index t (2 : Fin 3) * 256 + 1 * q = q; omega
  rw [hemb, V_main_v0, merged_apply]

/-- What point `t` writes back is block `t` of the merged eroded batch. -/
theorem flushed_eq (c : Dev nD) (t : Fin cfg0.N) :
    (dats m 0 c).flushed 1 t = ((cfg0.win 1).blk t).view.read (Elt Ideal) (merged m c) := by
  show (cfg0.win 1).cut (grid0.coords t) ((dats m 0 c).after 1 t) = _
  rw [after0_1]
  unfold out0_1
  rw [View.canon_unit_zero hz]
  simp only [View.ld_unit_zero (S := S8x256x256) hz]
  obtain ⟨e0, e1, e2, e3, e4, e5⟩ := idx_facts t
  have ht : t.val < 128 := by have : t.val < grid0.N := t.isLt; rw [N_0] at this; exact this
  funext j
  obtain ⟨p, r, q, rfl⟩ : ∃ (p : Fin 8) (r q : Fin 256), j = ix3 p r q := ⟨j 0, j 1, j 2, eq_ix3 j⟩
  show k0_pay1 (xblk m c t) (ix3 p r q) = merged m c (((cfg0.win 1).blk t).view.emb (ix3 p r q))
  have hemb : ((cfg0.win 1).blk t).view.emb (ix3 p r q)
      = (ix3 ⟨8 * t.val + p.val, by omega⟩ r q : S1024x256x256.Idx) := by
    funext a; apply Fin.ext
    match a with
    | ⟨0, _⟩ => show win0_1.index t (0 : Fin 3) * 8 + 1 * p.val = 8 * t.val + p.val; omega
    | ⟨1, _⟩ => show win0_1.index t (1 : Fin 3) * 256 + 1 * r.val = r.val; omega
    | ⟨2, _⟩ => show win0_1.index t (2 : Fin 3) * 256 + 1 * q.val = q.val; omega
  rw [hemb]
  show _ = shapeCast S1024x256x256 (eroded big (xin m c)) shapeCasts_S16x64x256x256_S1024x256x256 (ix3 ⟨8 * t.val + p.val, by omega⟩ r q)
  rw [merged_apply]
  exact Body.pay_apply (xblk m c t) p _ (fun r' q' hr hq => xblk_apply m c t p r' q' hr hq) r q

/-- An index of the output array is in point `t`'s block iff each coordinate is in the block's range. -/
theorem mem_blk (t : Fin cfg0.N) (i : S1024x256x256.Idx) :
    i ∈ ((cfg0.win 1).blk t).view.set ↔ ∀ a : Fin 3, win0_1.index t a * S8x256x256.size a ≤ (i a).val
      ∧ (i a).val < win0_1.index t a * S8x256x256.size a + S8x256x256.size a := by
  show i ∈ ((View.whole main_v1).slice (win0_1.rect t)).set ↔ _
  rw [View.set_slice_whole, Rect.mem_set_unit]
  exact Iff.rfl

/-- Image `n` of the output array is written by point `n / 8`: the blocks tile the array. -/
theorem cover (i : S1024x256x256.Idx) :
    ∃ t : Fin cfg0.N, (cfg0.win 1).flush t = true ∧ i ∈ ((cfg0.win 1).blk t).view.set := by
  have hi0 : (i 0).val < 1024 := (i 0).isLt
  have hi1 : (i 1).val < 256 := (i 1).isLt
  have hi2 : (i 2).val < 256 := (i 2).isLt
  have hN : (i 0).val / 8 < cfg0.N := by show _ < grid0.N; rw [N_0]; omega
  refine ⟨⟨(i 0).val / 8, hN⟩, flush0_1 _, ?_⟩
  obtain ⟨e0, e1, e2, e3, e4, e5⟩ := idx_facts ⟨(i 0).val / 8, hN⟩
  have e3' : win0_1.index ⟨(i 0).val / 8, hN⟩ (0 : Fin 3) = (i 0).val / 8 := e3
  rw [mem_blk]
  intro a
  match a with
  | ⟨0, _⟩ =>
    show win0_1.index ⟨(i 0).val / 8, hN⟩ (0 : Fin 3) * 8 ≤ (i 0).val
      ∧ (i 0).val < win0_1.index ⟨(i 0).val / 8, hN⟩ (0 : Fin 3) * 8 + 8
    omega
  | ⟨1, _⟩ =>
    show win0_1.index ⟨(i 0).val / 8, hN⟩ (1 : Fin 3) * 256 ≤ (i 1).val
      ∧ (i 1).val < win0_1.index ⟨(i 0).val / 8, hN⟩ (1 : Fin 3) * 256 + 256
    omega
  | ⟨2, _⟩ =>
    show win0_1.index ⟨(i 0).val / 8, hN⟩ (2 : Fin 3) * 256 ≤ (i 2).val
      ∧ (i 2).val < win0_1.index ⟨(i 0).val / 8, hN⟩ (2 : Fin 3) * 256 + 256
    omega

/-- The kernel's output array after the run: the eroded batch, leading axes merged. -/
theorem final (c : Dev nD) : (dats m 0 c).arrAt 1 cfg0.N = merged m c :=
  (dats m 0 c).arrAt_eq_of_cover 1 (merged m c) (fun t _ => flushed_eq m c t) cover

/-- The program's result, after the leading axis is split again: the eroded batch. -/
theorem tail_eq (c : Dev nD) :
    Pipeline.afterTail₀ cfgs (dats m) 0 (V0 m) [hostOps1] c main_v2 = eroded big (xin m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = merged m c :=
    (Pipeline.withArrays_arr spec0 launch0.win.arr_inj c _ _ 1).trans (final m c)
  rw [hw]
  funext i
  exact congrFun (shapeCast_shapeCast (eroded big (xin m c)) shapeCasts_S16x64x256x256_S1024x256x256
    shapeCasts_S1024x256x256_S16x64x256x256) i

/-- Every run of the kernel program ends with the eroded batch in its result and its argument as it was. -/
theorem run : θ_run defs (onTc (τ := τ) (main (F := Ideal))) ⟨m, fun _ => 0, ρ⟩ fun r => ∀ c : Dev nD,
      r.2.mem ((c : Thread nD τ).loc main_v2) = eroded big (xin m c)
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

end Cert.KernelIdeal.KValue

end
-- ==== Proof.RefValue.lean ====
/-
  What the reference computes, entry by entry.

  The reference pads every image of the batch by one pixel on each side with the float 1e9 and reduces each 3 × 3
  window of the padded image with the minimum, starting from +∞.  The padded image is the image seen through a
  one-pixel border; the window's nine positions are walked row by row; and the minimum with +∞ = ⊤ is the identity on
  the extended reals.  So the result is the eroded batch.
-/
import proofs.«109945_j86517821212128_1_alg».proof.Proof.Gen.ReferenceIdeal.Run
import proofs.«109945_j86517821212128_1_alg».proof.Proof.Erosion
import Idealize.ShloMosaic.Lib.KernelVsHost

noncomputable section

namespace Cert.ReferenceIdeal.RefValue

open Cert.ReferenceIdeal Cert.ReferenceIdeal.Gen Idealize.ShloMosaic Idealize.ShloMosaic.ValueIdx Cert.Erosion

/-- The window: one image, 3 rows, 3 columns. -/
abbrev Wn : Shape := ⟨4, ![1, 1, 3, 3]⟩

/-- Its nine positions, in row-major order. -/
theorem positions : List.finRange 9 = [0, 1, 2, 3, 4, 5, 6, 7, 8] := by decide

/-- Position `n` of the window is row `n / 3`, column `n % 3` of the same image. -/
theorem pos0 : ∀ n : Fin 9, ((Wn.rowMajor.symm n) 0).val = 0 := by decide +kernel
theorem pos1 : ∀ n : Fin 9, ((Wn.rowMajor.symm n) 1).val = 0 := by decide +kernel
theorem pos2 : ∀ n : Fin 9, ((Wn.rowMajor.symm n) 2).val = n.val / 3 := by decide +kernel
theorem pos3 : ∀ n : Fin 9, ((Wn.rowMajor.symm n) 3).val = n.val % 3 := by decide +kernel

/-- The windowed minimum at entry (a, b, r, q): the fold, from the initial value, of the minimum over the nine
    entries (a, b, r + n / 3, q + n % 3) of the operand. -/
theorem window_apply (X : FVec Ideal S16x64x258x258 .f32) (v : FVec Ideal S_ .f32) (a : Fin 16) (b : Fin 64) (r q : Fin 256) :
    Host.reduceWindow FloatOps.minimumf ![1, 1, 3, 3] ![1, 1, 1, 1] ![0, 0, 0, 0] ![0, 0, 0, 0] X v
      reduceWindows_S16x64x258x258_S16x64x256x256_w1s1p0_0_w1s1p0_0_w3s1p0_0_w3s1p0_0 h_S_ (ix4 a b r q)
      = List.foldl (fun acc (n : Fin 9) =>
          min acc (X (ix4 a b ⟨r.val + n.val / 3, by omega⟩ ⟨q.val + n.val % 3, by omega⟩)))
        (v (Shape.Idx.first h_S_)) (List.finRange 9) := by
  unfold Host.reduceWindow
  dsimp only
  show List.foldl (β := Fin 9) _ _ (List.finRange 9) = _
  refine congrArg (fun g => List.foldl g (v (Shape.Idx.first h_S_)) (List.finRange 9)) ?_
  funext acc n
  have hn : n.val < 9 := n.isLt
  have e0 := pos0 n
  have e1 := pos1 n
  have e2 := pos2 n
  have e3 := pos3 n
  rw [dif_pos (by
    intro a'
    match a' with
    | ⟨0, _⟩ => show 0 ≤ a.val * 1 + ((Wn.rowMajor.symm n) 0).val ∧ a.val * 1 + ((Wn.rowMajor.symm n) 0).val - 0 < 16; omega
    | ⟨1, _⟩ => show 0 ≤ b.val * 1 + ((Wn.rowMajor.symm n) 1).val ∧ b.val * 1 + ((Wn.rowMajor.symm n) 1).val - 0 < 64; omega
    | ⟨2, _⟩ => show 0 ≤ r.val * 1 + ((Wn.rowMajor.symm n) 2).val ∧ r.val * 1 + ((Wn.rowMajor.symm n) 2).val - 0 < 258; omega
    | ⟨3, _⟩ => show 0 ≤ q.val * 1 + ((Wn.rowMajor.symm n) 3).val ∧ q.val * 1 + ((Wn.rowMajor.symm n) 3).val - 0 < 258; omega)]
  refine congrArg (min acc) (congrArg X (funext fun a' => Fin.ext ?_))
  match a' with
  | ⟨0, _⟩ => show a.val * 1 + ((Wn.rowMajor.symm n) 0).val - 0 = a.val; omega
  | ⟨1, _⟩ => show b.val * 1 + ((Wn.rowMajor.symm n) 1).val - 0 = b.val; omega
  | ⟨2, _⟩ => show r.val * 1 + ((Wn.rowMajor.symm n) 2).val - 0 = r.val + n.val / 3; omega
  | ⟨3, _⟩ => show q.val * 1 + ((Wn.rowMajor.symm n) 3).val - 0 = q.val + n.val % 3; omega

/-- The padded batch at entry (a, b, r, q) is image (a, b) seen through the border. -/
theorem pad_apply (x : FVec Ideal S16x64x256x256 .f32) (v : FVec Ideal S_ .f32) (a : Fin 16) (b : Fin 64) (r q : Fin 258) :
    pad S16x64x258x258 ![0, 0, 1, 1] ![0, 0, 1, 1] ![0, 0, 0, 0] x v pads_S16x64x256x256_S16x64x258x258_000_000_110_110 h_S_ (ix4 a b r q)
      = bordered (v (Shape.Idx.first h_S_)) (img x a b) r.val q.val := by
  by_cases h : (1 ≤ r.val ∧ r.val ≤ 256) ∧ (1 ≤ q.val ∧ q.val ≤ 256)
  · rw [bordered_inner _ _ _ _ h, img_apply x a b (r.val - 1) (q.val - 1) (by omega) (by omega)]
    refine pad_apply_of_inside _ _ _ x v _ h_S_ (ix4 a b r q) (ix4 a b ⟨r.val - 1, by omega⟩ ⟨q.val - 1, by omega⟩) ?_
    intro a'
    match a' with
    | ⟨0, _⟩ => show a.val = 0 + a.val * (0 + 1); omega
    | ⟨1, _⟩ => show b.val = 0 + b.val * (0 + 1); omega
    | ⟨2, _⟩ => show r.val = 1 + (r.val - 1) * (0 + 1); omega
    | ⟨3, _⟩ => show q.val = 1 + (q.val - 1) * (0 + 1); omega
  · rw [bordered_border _ _ _ _ h]
    by_cases hr : 1 ≤ r.val ∧ r.val ≤ 256
    · have hq : ¬(1 ≤ q.val ∧ q.val ≤ 256) := fun hq => h ⟨hr, hq⟩
      refine pad_apply_of_not_inside _ _ _ x v _ h_S_ (ix4 a b r q) (3 : Fin 4) ?_
      show ¬(1 ≤ q.val ∧ (q.val - 1) % (0 + 1) = 0 ∧ (q.val - 1) / (0 + 1) < 256)
      omega
    · refine pad_apply_of_not_inside _ _ _ x v _ h_S_ (ix4 a b r q) (2 : Fin 4) ?_
      show ¬(1 ≤ r.val ∧ (r.val - 1) % (0 + 1) = 0 ∧ (r.val - 1) / (0 + 1) < 256)
      omega

/-- The reference's result is the eroded batch. -/
theorem result_eq (x : FVec Ideal S16x64x256x256 .f32) :
    Host.reduceWindow FloatOps.minimumf ![1, 1, 3, 3] ![1, 1, 1, 1] ![0, 0, 0, 0] ![0, 0, 0, 0]
      (pad S16x64x258x258 ![0, 0, 1, 1] ![0, 0, 1, 1] ![0, 0, 0, 0] x (id (constant S_ .f32 0x4E6E6B28#32))
        pads_S16x64x256x256_S16x64x258x258_000_000_110_110 h_S_)
      (broadcastInDim S_ ![] bcast_S_S_ (constant S_ .f32 0x7F800000#32))
      reduceWindows_S16x64x258x258_S16x64x256x256_w1s1p0_0_w1s1p0_0_w3s1p0_0_w3s1p0_0 h_S_
      = eroded big x := by
  funext i
  obtain ⟨a, b, r, q, rfl⟩ : ∃ a b r q, i = ix4 a b r q := ⟨i 0, i 1, i 2, i 3, eq_ix4 i⟩
  rw [window_apply, positions]
  simp only [List.foldl_cons, List.foldl_nil, pad_apply]
  have htop : broadcastInDim S_ ![] bcast_S_S_ (constant (F := Ideal) S_ .f32 0x7F800000#32) (Shape.Idx.first h_S_) = ⊤ :=
    ofBits_inf
  rw [htop, min_top_left]
  rfl

end Cert.ReferenceIdeal.RefValue

end
-- ==== Proof.lean ====
/- Erosion of a batch of 16 × 64 images of 256 × 256 pixels by a 3 × 3 window, the border at the float 1e9.

   Both programs compute, for every pixel, the minimum over the nine pixels of the 3 × 3 window centred on it, where
   a position outside the image counts as 1e9.  The kernel pads each block of eight images with border rows and
   columns and chains eight minima over the nine shifted slices; the reference pads the whole batch and reduces every
   3 × 3 window with the minimum starting from +∞.  On the extended reals the minimum with +∞ = ⊤ changes nothing, and
   the kernel's chain and the window's row-major walk visit the nine positions in the same order, so both results are
   the same function of the batch (Proof/Erosion.lean) — on every input: no finiteness is used.
   Proof/Payload.lean reads the kernel body's stored value at an entry, Proof/KernelValue.lean the kernel program's
   result array, Proof/RefValue.lean the reference's.  The three frames are the generated ones (the reference's is
   its generated run with the result dropped), and nothing was idealized, so `preserves` is trivial. -/
import proofs.«109945_j86517821212128_1_alg».proof.Defs
import proofs.«109945_j86517821212128_1_alg».proof.Proof.Gen.Kernel
import proofs.«109945_j86517821212128_1_alg».proof.Proof.Gen.Kernel.Skeleton
import proofs.«109945_j86517821212128_1_alg».proof.Proof.Gen.Kernel.Launch
import proofs.«109945_j86517821212128_1_alg».proof.Proof.Gen.Kernel.Points
import proofs.«109945_j86517821212128_1_alg».proof.Proof.Gen.Kernel.Frame
import proofs.«109945_j86517821212128_1_alg».proof.Proof.Gen.KernelIdeal
import proofs.«109945_j86517821212128_1_alg».proof.Proof.Gen.KernelIdeal.Skeleton
import proofs.«109945_j86517821212128_1_alg».proof.Proof.Gen.KernelIdeal.Launch
import proofs.«109945_j86517821212128_1_alg».proof.Proof.Gen.KernelIdeal.Points
import proofs.«109945_j86517821212128_1_alg».proof.Proof.Gen.KernelIdeal.Frame
import proofs.«109945_j86517821212128_1_alg».proof.Proof.Gen.ReferenceIdeal
import proofs.«109945_j86517821212128_1_alg».proof.Proof.Gen.ReferenceIdeal.Run
import proofs.«109945_j86517821212128_1_alg».proof.Proof.Gen.Pre_finite_inputs
import proofs.«109945_j86517821212128_1_alg».proof.Proof.KernelValue
import proofs.«109945_j86517821212128_1_alg».proof.Proof.RefValue
import Idealize.ShloMosaic.Adequacy
import Idealize.ShloMosaic.Init

noncomputable section

namespace Cert.Proof

open Idealize.ShloMosaic Idealize.SL.Sem Cert.Erosion

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the eroded batch in their result. -/
theorem algebraic : Cert.algebraic_KernelIdeal_ReferenceIdeal := by
  intro m ρ m' ρ' _ hagree
  refine ⟨fun c => eroded big (Cert.KernelIdeal.KValue.xin m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.RefValue.result_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
